-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S2000x256 : Shape := ⟨2, ![2000, 256]⟩
abbrev S800000x256 : Shape := ⟨2, ![800000, 256]⟩
abbrev S50000x1 : Shape := ⟨2, ![50000, 1]⟩
abbrev S1x256 : Shape := ⟨2, ![1, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩

abbrev nBuf : Space → Nat
  | .hbm => 96
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S50000x256, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S800000x1, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x256, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S800000x1, .f32⟩
  | .hbm, ⟨80, _⟩ => ⟨S800000x128, .f32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S50000x1, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000x256, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S800000x1, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x256, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000, .f32⟩
  | .hbm, ⟨98, _⟩ => ⟨S800000, .f32⟩
  | .hbm, ⟨99, _⟩ => ⟨S_, .i32⟩
  | .hbm, ⟨100, _⟩ => ⟨S800000, .i32⟩
  | .hbm, ⟨101, _⟩ => ⟨S800000, .i1⟩
  | .hbm, ⟨102, _⟩ => ⟨S_, .i32⟩
  | .hbm, ⟨103, _⟩ => ⟨S800000, .i32⟩
  | .hbm, ⟨104, _⟩ => ⟨S800000, .i32⟩
  | .hbm, ⟨105, _⟩ => ⟨S800000, .i32⟩
  | .hbm, ⟨106, _⟩ => ⟨S800000x1, .i32⟩
  | .hbm, ⟨107, _⟩ => ⟨S800000x128, .f32⟩
  | .hbm, ⟨108, _⟩ => ⟨S800000x1, .f32⟩
  | .hbm, ⟨109, _⟩ => ⟨S800000x128, .f32⟩
  | .hbm, ⟨110, _⟩ => ⟨S800000x128, .f32⟩
  | .hbm, ⟨111, _⟩ => ⟨S_, .f32⟩
  | .hbm, ⟨112, _⟩ => ⟨S50000x128, .f32⟩
  | .hbm, ⟨113, _⟩ => ⟨S800000x1, .i32⟩
  | .hbm, ⟨114, _⟩ => ⟨S50000x128, .f32⟩
  | .hbm, ⟨115, _⟩ => ⟨S_, .f32⟩
  | .hbm, ⟨116, _⟩ => ⟨S50000, .f32⟩
  | .hbm, ⟨117, _⟩ => ⟨S50000, .f32⟩
  | .hbm, ⟨118, _⟩ => ⟨S50000x1, .f32⟩
  | .hbm, ⟨119, _⟩ => ⟨S50000x128, .f32⟩
  | .hbm, ⟨120, _⟩ => ⟨S50000x128, .f32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_19 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Layers.lean ====
/-
  The graph-convolution layer around the dense projection, as functions of arrays.

  Both programs compute, around each projection `xl = x·W`, the same chain of array operations:
    dst, src       rows 1 and 0 of the edge table;
    deg            1 + the number of edges into each node (a scatter-add of ones over dst);
    coef[e]        deg^(-1/2)[src e] · deg^(-1/2)[dst e]   (a negative node index counting from the end, as jnp indexes);
    aggregate      Σ_{e : dst e = i} xl[src e] · coef[e]  +  xl[i] · (1 / deg[i])  +  b   (a gather, a scatter-add, the self-loop, the bias);
    relu           max(·, 0) between the two layers.
  They are named here once, over the printed operations, so that a statement about either program speaks of them and
  never opens them: the two programs differ only in how `xl` is computed.
-/
import proofs.«118485_j37271726195316_1_alg».proof.Proof.Gen.KernelIdeal

noncomputable section

namespace Cert.KernelIdeal.Layers

open Cert.KernelIdeal Cert.KernelIdeal.Facts₀ Idealize.ShloMosaic Idealize.ShloMosaic.TcCoe

variable {F : FTy → Type} [FloatOps F]

/-- The source node of every edge: row 0 of the edge table. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The destination node of every edge: row 1 of the edge table. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- Each node's degree with its self-loop: one, plus one for every edge that ends at it. -/
def degOf (dst : (⟨S800000, .i32⟩ : BufTy).Contents (Elt F)) : (⟨S50000, .f32⟩ : BufTy).Contents (Elt F) :=
  addf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32))

/-- A node index below zero counts from the end: `i ↦ i + 50000` where `i < 0`. -/
def fromEnd (ix : (⟨S800000, .i32⟩ : BufTy).Contents (Elt F)) : (⟨S800000, .i32⟩ : BufTy).Contents (Elt F) :=
  select (cmpi .slt ix (broadcastInDim S800000 ![] bcast_S_S800000 (constantI S_ 32 0#32)))
    (addi ix (broadcastInDim S800000 ![] bcast_S_S800000 (constantI S_ 32 50000#32))) ix

/-- The symmetric normalisation of every edge: `deg^(-1/2)` at its source times `deg^(-1/2)` at its destination. -/
def coefOf (src dst : (⟨S800000, .i32⟩ : BufTy).Contents (Elt F)) (deg : (⟨S50000, .f32⟩ : BufTy).Contents (Elt F)) :
    (⟨S800000, .f32⟩ : BufTy).Contents (Elt F) :=
  mulf
    (Host.gather gather_S50000_S800000x1_S800000_n_0_n_n_0_1_1 (Host.rsqrt deg)
      (broadcastInDim S800000x1 ![0] bcast_S800000_S800000x1_0 (fromEnd src)))
    (Host.gather gather_S50000_S800000x1_S800000_n_0_n_n_0_1_1 (Host.rsqrt deg)
      (broadcastInDim S800000x1 ![0] bcast_S800000_S800000x1_0 (fromEnd dst)))

/-- The first layer after its projection `xl` (256 columns): the normalised messages summed at their destinations,
    the self-loop term `xl · (1 / deg)`, the bias. -/
def aggregate256 (xl : (⟨S50000x256, .f32⟩ : BufTy).Contents (Elt F)) (src dst : (⟨S800000, .i32⟩ : BufTy).Contents (Elt F))
    (coef : (⟨S800000, .f32⟩ : BufTy).Contents (Elt F)) (deg : (⟨S50000, .f32⟩ : BufTy).Contents (Elt F))
    (b : (⟨S256, .f32⟩ : BufTy).Contents (Elt F)) : (⟨S50000x256, .f32⟩ : BufTy).Contents (Elt F) :=
  addf
    (addf
      (Host.scatterAdd scatter_S50000x256_S800000x1_S800000x256_1_0_0_1
        (broadcastInDim S50000x256 ![] bcast_S_S50000x256 (constant S_ .f32 0x00000000#32))
        (broadcastInDim S800000x1 ![0] bcast_S800000_S800000x1_0 dst)
        (mulf
          (Host.gather gather_S50000x256_S800000x1_S800000x256_1_0_n_n_0_1_1256 xl
            (broadcastInDim S800000x1 ![0] bcast_S800000_S800000x1_0 (fromEnd src)))
          (broadcastInDim S800000x256 ![0, 1] bcast_S800000x1_S800000x256_0_1
            (broadcastInDim S800000x1 ![0] bcast_S800000_S800000x1_0 coef))))
      (mulf xl
        (broadcastInDim S50000x256 ![0, 1] bcast_S50000x1_S50000x256_0_1
          (broadcastInDim S50000x1 ![0] bcast_S50000_S50000x1_0
            (Host.divf (broadcastInDim S50000 ![] bcast_S_S50000 (constant S_ .f32 0x3F800000#32)) deg)))))
    (broadcastInDim S50000x256 ![0, 1] bcast_S1x256_S50000x256_0_1 (broadcastInDim S1x256 ![1] bcast_S256_S1x256_1 b))

/-- `max(·, 0)`, entry by entry. -/
def relu (h : (⟨S50000x256, .f32⟩ : BufTy).Contents (Elt F)) : (⟨S50000x256, .f32⟩ : BufTy).Contents (Elt F) :=
  maximumf h (broadcastInDim S50000x256 ![] bcast_S_S50000x256 (constant S_ .f32 0x00000000#32))

/-- The second layer after its projection `xl` (128 columns): the same aggregation, self-loop and bias. -/
def aggregate128 (xl : (⟨S50000x128, .f32⟩ : BufTy).Contents (Elt F)) (src dst : (⟨S800000, .i32⟩ : BufTy).Contents (Elt F))
    (coef : (⟨S800000, .f32⟩ : BufTy).Contents (Elt F)) (deg : (⟨S50000, .f32⟩ : BufTy).Contents (Elt F))
    (b : (⟨S128, .f32⟩ : BufTy).Contents (Elt F)) : (⟨S50000x128, .f32⟩ : BufTy).Contents (Elt F) :=
  addf
    (addf
      (Host.scatterAdd scatter_S50000x128_S800000x1_S800000x128_1_0_0_1
        (broadcastInDim S50000x128 ![] bcast_S_S50000x128 (constant S_ .f32 0x00000000#32))
        (broadcastInDim S800000x1 ![0] bcast_S800000_S800000x1_0 dst)
        (mulf
          (Host.gather gather_S50000x128_S800000x1_S800000x128_1_0_n_n_0_1_1128 xl
            (broadcastInDim S800000x1 ![0] bcast_S800000_S800000x1_0 (fromEnd src)))
          (broadcastInDim S800000x128 ![0, 1] bcast_S800000x1_S800000x128_0_1
            (broadcastInDim S800000x1 ![0] bcast_S800000_S800000x1_0 coef))))
      (mulf xl
        (broadcastInDim S50000x128 ![0, 1] bcast_S50000x1_S50000x128_0_1
          (broadcastInDim S50000x1 ![0] bcast_S50000_S50000x1_0
            (Host.divf (broadcastInDim S50000 ![] bcast_S_S50000 (constant S_ .f32 0x3F800000#32)) deg)))))
    (broadcastInDim S50000x128 ![0, 1] bcast_S1x128_S50000x128_0_1 (broadcastInDim S1x128 ![1] bcast_S128_S1x128_1 b))

end Cert.KernelIdeal.Layers

end
-- ==== Proof.Network.lean ====
/-
  The two-layer network with its two dense projections as parameters.

  `network P₁ P₂` is: project the features by `P₁`, aggregate over the graph, clamp at zero, project by `P₂`, aggregate again —
  the edge arrays (source, destination, degree, normalisation) computed once from the edge table and used by both layers.
  The kernel's program is `network` at the products its two pallas_calls leave; the reference is `network` at jnp's two
  `dot_general`s.
-/
import proofs.«118485_j37271726195316_1_alg».proof.Proof.Layers

noncomputable section

namespace Cert.KernelIdeal.Layers

open Cert.KernelIdeal Idealize.ShloMosaic Idealize.ShloMosaic.TcCoe

variable {F : FTy → Type} [FloatOps F]

def network
    (P₁ : (⟨S50000x256, .f32⟩ : BufTy).Contents (Elt F) → (⟨S256x256, .f32⟩ : BufTy).Contents (Elt F) → (⟨S50000x256, .f32⟩ : BufTy).Contents (Elt F))
    (P₂ : (⟨S50000x256, .f32⟩ : BufTy).Contents (Elt F) → (⟨S256x128, .f32⟩ : BufTy).Contents (Elt F) → (⟨S50000x128, .f32⟩ : BufTy).Contents (Elt F))
    (x : (⟨S50000x256, .f32⟩ : BufTy).Contents (Elt F)) (e : (⟨S2x800000, .i32⟩ : BufTy).Contents (Elt F))
    (w₁ : (⟨S256x256, .f32⟩ : BufTy).Contents (Elt F)) (b₁ : (⟨S256, .f32⟩ : BufTy).Contents (Elt F))
    (w₂ : (⟨S256x128, .f32⟩ : BufTy).Contents (Elt F)) (b₂ : (⟨S128, .f32⟩ : BufTy).Contents (Elt F)) :
    (⟨S50000x128, .f32⟩ : BufTy).Contents (Elt F) :=
  aggregate128
    (P₂ (relu (aggregate256 (P₁ x w₁) (srcOf e) (dstOf e) (coefOf (srcOf e) (dstOf e) (degOf (dstOf e))) (degOf (dstOf e)) b₁)) w₂)
    (srcOf e) (dstOf e) (coefOf (srcOf e) (dstOf e) (degOf (dstOf e))) (degOf (dstOf e)) b₂

end Cert.KernelIdeal.Layers

end
-- ==== Proof.AtFirstCall.lean ====
/-
  When the first pallas_call is entered: the host has computed, from the edge table alone, the source and destination of
  every edge, the degrees (with the self-loop) and the edge normalisation; the arguments are as launched.
-/
import proofs.«118485_j37271726195316_1_alg».proof.Proof.Gen.KernelIdeal.Frame
import proofs.«118485_j37271726195316_1_alg».proof.Proof.Network
import Idealize.ShloMosaic.Lib.StableHlo.Run
import Idealize.ShloMosaic.PureOps.Ideal

set_option maxRecDepth 16384

noncomputable section

namespace Cert.KernelIdeal.Through

open Cert.KernelIdeal Cert.KernelIdeal.Gen Cert.KernelIdeal.Layers
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 16000000 in
theorem first_src (c : Dev nD) : W1 m ρ c (Proc.devRef .tc main_v1) = srcOf (m ((c : Thread nD τ).loc main_arg1)) := by
  show StableHlo.after hostOps0 (W0 m ρ c) _ = _
  after_results_simp
  try rfl
set_option maxHeartbeats 16000000 in
theorem first_dst (c : Dev nD) : W1 m ρ c (Proc.devRef .tc main_v3) = dstOf (m ((c : Thread nD τ).loc main_arg1)) := by
  show StableHlo.after hostOps0 (W0 m ρ c) _ = _
  after_results_simp
  try rfl
set_option maxHeartbeats 16000000 in
theorem first_deg (c : Dev nD) : W1 m ρ c (Proc.devRef .tc main_v9) = degOf (dstOf (m ((c : Thread nD τ).loc main_arg1))) := by
  show StableHlo.after hostOps0 (W0 m ρ c) _ = _
  after_results_simp
  try rfl
set_option maxHeartbeats 16000000 in
theorem first_coef (c : Dev nD) : W1 m ρ c (Proc.devRef .tc main_v25) = coefOf (srcOf (m ((c : Thread nD τ).loc main_arg1))) (dstOf (m ((c : Thread nD τ).loc main_arg1))) (degOf (dstOf (m ((c : Thread nD τ).loc main_arg1)))) := by
  show StableHlo.after hostOps0 (W0 m ρ c) _ = _
  after_results_simp
  try rfl
set_option maxHeartbeats 16000000 in
theorem first_arg0 (c : Dev nD) : W1 m ρ c (Proc.devRef .tc main_arg0) = m ((c : Thread nD τ).loc main_arg0) := by
  show StableHlo.after hostOps0 (W0 m ρ c) _ = _
  after_results_simp
  try rfl
set_option maxHeartbeats 16000000 in
theorem first_arg2 (c : Dev nD) : W1 m ρ c (Proc.devRef .tc main_arg2) = m ((c : Thread nD τ).loc main_arg2) := by
  show StableHlo.after hostOps0 (W0 m ρ c) _ = _
  after_results_simp
  try rfl
set_option maxHeartbeats 16000000 in
theorem first_arg3 (c : Dev nD) : W1 m ρ c (Proc.devRef .tc main_arg3) = m ((c : Thread nD τ).loc main_arg3) := by
  show StableHlo.after hostOps0 (W0 m ρ c) _ = _
  after_results_simp
  try rfl
set_option maxHeartbeats 16000000 in
theorem first_arg4 (c : Dev nD) : W1 m ρ c (Proc.devRef .tc main_arg4) = m ((c : Thread nD τ).loc main_arg4) := by
  show StableHlo.after hostOps0 (W0 m ρ c) _ = _
  after_results_simp
  try rfl
set_option maxHeartbeats 16000000 in
theorem first_arg5 (c : Dev nD) : W1 m ρ c (Proc.devRef .tc main_arg5) = m ((c : Thread nD τ).loc main_arg5) := by
  show StableHlo.after hostOps0 (W0 m ρ c) _ = _
  after_results_simp
  try rfl

theorem entry_first (c : Dev nD) :
    W1 m ρ c (Proc.devRef .tc main_v1) = srcOf (m ((c : Thread nD τ).loc main_arg1))
    ∧ W1 m ρ c (Proc.devRef .tc main_v3) = dstOf (m ((c : Thread nD τ).loc main_arg1))
    ∧ W1 m ρ c (Proc.devRef .tc main_v9) = degOf (dstOf (m ((c : Thread nD τ).loc main_arg1)))
    ∧ W1 m ρ c (Proc.devRef .tc main_v25) = coefOf (srcOf (m ((c : Thread nD τ).loc main_arg1))) (dstOf (m ((c : Thread nD τ).loc main_arg1))) (degOf (dstOf (m ((c : Thread nD τ).loc main_arg1))))
    ∧ W1 m ρ c (Proc.devRef .tc main_arg0) = m ((c : Thread nD τ).loc main_arg0)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg4) = m ((c : Thread nD τ).loc main_arg4)
    ∧ W1 m ρ c (Proc.devRef .tc main_arg5) = m ((c : Thread nD τ).loc main_arg5) :=
  ⟨first_src m ρ c, first_dst m ρ c, first_deg m ρ c, first_coef m ρ c, first_arg0 m ρ c, first_arg2 m ρ c, first_arg3 m ρ c,
   first_arg4 m ρ c, first_arg5 m ρ c⟩

end Cert.KernelIdeal.Through

end
-- ==== Proof.ProjFirst.lean ====
/-
  The first dense projection, as the array the first pallas_call leaves.

  The call runs a 25-point grid; point t loads rows 2000·t … 2000·t+1999 of the node features x (all 256 columns)
  and the whole 256×256 weight W, and stores their product into the same rows of the output. On the extended reals
  the change of float format before the product is the identity and the product into a zero accumulator is the plain
  sum, so the block point t writes is rows 2000·t … of the ONE array  (x·W)[r, c] = Σ_k x[r, k] · W[k, c],  and the
  25 blocks tile the 50000 rows: after the call the output array is x·W, whatever the buffers held at entry.
-/
import proofs.«118485_j37271726195316_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.ProjFirst

open Cert.KernelIdeal Cert.KernelIdeal.Gen Idealize.ShloMosaic Idealize.ShloMosaic.TcCoe Idealize.SL.Sem
open Idealize.ShloMosaic.Pipeline (Dat Cfg Window)

/-! ## The product, entry by entry -/

/-- Entry (row of `i`, `k`) of the feature array. -/
abbrev featIx (i : S50000x256.Idx) (k : Fin 256) : S50000x256.Idx := fun a => match a with
  | ⟨0, _⟩ => ⟨(i 0).val, (i 0).isLt⟩
  | ⟨1, _⟩ => ⟨k.val, k.isLt⟩
/-- Entry (`k`, column of `i`) of the weight. -/
abbrev wgtIx (i : S50000x256.Idx) (k : Fin 256) : S256x256.Idx := fun a => match a with
  | ⟨0, _⟩ => ⟨k.val, k.isLt⟩
  | ⟨1, _⟩ => ⟨(i 1).val, (i 1).isLt⟩

/-- `x·W` on the extended reals: `(x·W)[r, c] = Σ_k x[r, k] · W[k, c]`. -/
def xW (x : S50000x256.Idx → EReal) (w : S256x256.Idx → EReal) : S50000x256.Idx → EReal :=
  fun i => ∑ k : Fin 256, x (featIx i k) * w (wgtIx i k)

/-! ## One block's product at an index -/

/-- Entry (row of `j`, `k`) of a 2000-row block of features. -/
abbrev blkFeatIx (j : S2000x256.Idx) (k : Fin 256) : S2000x256.Idx := fun a => match a with
  | ⟨0, _⟩ => ⟨(j 0).val, (j 0).isLt⟩
  | ⟨1, _⟩ => ⟨k.val, k.isLt⟩
/-- Entry (`k`, column of `j`) of the weight, for an index of a block. -/
abbrev blkWgtIx (j : S2000x256.Idx) (k : Fin 256) : S256x256.Idx := fun a => match a with
  | ⟨0, _⟩ => ⟨k.val, k.isLt⟩
  | ⟨1, _⟩ => ⟨(j 1).val, (j 1).isLt⟩

theorem lhs_axis0 (j : S2000x256.Idx) (q : dot_S2000x256_S256x256_S2000x256_1_0_0_1_n_n.contr.Idx) :
    (dot_S2000x256_S256x256_S2000x256_1_0_0_1_n_n.lhsIdx j q 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_axis1 (j : S2000x256.Idx) (q : dot_S2000x256_S256x256_S2000x256_1_0_0_1_n_n.contr.Idx) :
    (dot_S2000x256_S256x256_S2000x256_1_0_0_1_n_n.lhsIdx j q 1).val = (q ⟨0, by decide⟩).val :=
  dot_S2000x256_S256x256_S2000x256_1_0_0_1_n_n.lhsIdx_val_of_single rfl j q
theorem rhs_axis0 (j : S2000x256.Idx) (q : dot_S2000x256_S256x256_S2000x256_1_0_0_1_n_n.contr.Idx) :
    (dot_S2000x256_S256x256_S2000x256_1_0_0_1_n_n.rhsIdx j q 0).val = (q ⟨0, by decide⟩).val :=
  dot_S2000x256_S256x256_S2000x256_1_0_0_1_n_n.rhsIdx_val_of_single rfl j q
theorem rhs_axis1 (j : S2000x256.Idx) (q : dot_S2000x256_S256x256_S2000x256_1_0_0_1_n_n.contr.Idx) :
    (dot_S2000x256_S256x256_S2000x256_1_0_0_1_n_n.rhsIdx j q 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- What the body stores, at an index of the block: the row of the feature block against the column of the weight. -/
theorem pay_apply (x0 : Vec Ideal S2000x256 .f32) (x1 : Vec Ideal S256x256 .f32) (j : S2000x256.Idx) :
    k0_pay1 (F := Ideal) x0 x1 j = ∑ k : Fin 256, x0 (blkFeatIx j k) * x1 (blkWgtIx j k) := by
  unfold k0_pay1
  refine (Ideal.matmul_constant_zero_apply dot_S2000x256_S256x256_S2000x256_1_0_0_1_n_n none _ _ j).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx j ((ValueIdx.contrEquiv1 dot_S2000x256_S256x256_S2000x256_1_0_0_1_n_n 256 rfl rfl).symm k) = blkFeatIx j k := funext fun a => Fin.ext (by
    match a with
    | ⟨0, _⟩ => exact lhs_axis0 _ _
    | ⟨1, _⟩ => exact (lhs_axis1 _ _).trans hk)
  have er : dot_S2000x256_S256x256_S2000x256_1_0_0_1_n_n.rhsIdx j ((ValueIdx.contrEquiv1 dot_S2000x256_S256x256_S2000x256_1_0_0_1_n_n 256 rfl rfl).symm k) = blkWgtIx j k := funext fun a => Fin.ext (by
    match a with
    | ⟨0, _⟩ => exact (rhs_axis0 _ _).trans hk
    | ⟨1, _⟩ => exact rhs_axis1 _ _)
  rw [el, er]
  rfl

/-! ## From blocks to the array -/

section Blocks

-- the buffers' contents when the call is entered: any
variable (V : (c : Dev nD) → (b : Ref sig .tc) → Buf (Elt Ideal) ((c : Thread nD τ).loc b))

theorem origin_eq : (![0, 0] : Fin 2 → Nat) = fun _ => 0 := funext fun a => by fin_cases a <;> rfl

/-- The block indices over the grid: point `t` takes block row `t` of the features and of the output, and the one block of the weight. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows `2000·t …` of `x·W`, for the features and the weight as the call finds them. -/
theorem flushed_eq (c : Dev nD) (t : Fin cfg0.N) :
    (dat0 V c).flushed 2 t = ((cfg0.win 2).blk t).view.read (Elt Ideal) (xW (V c main_arg0) (V c main_arg2)) := by
  show (cfg0.win 2).cut (grid0.coords t) ((dat0 V c).after 2 t) = _
  rw [after0_2]
  unfold out0_2
  rw [View.canon_unit_zero origin_eq]
  simp only [View.ld_unit_zero (S := S2000x256) origin_eq, View.ld_unit_zero (S := S256x256) origin_eq]
  obtain ⟨e0, e1, e2, e3, e4, e5⟩ := block_indices t
  funext j
  refine (pay_apply (iblk0 V c 0 t) (iblk0 V c 1 t) j).trans ?_
  show _ = xW (V c main_arg0) (V c main_arg2) (((cfg0.win 2).blk t).view.emb j)
  unfold xW
  refine Finset.sum_congr rfl fun k _ => ?_
  have h0 : iblk0 V c 0 t (blkFeatIx j k) = V c main_arg0 (featIx (((cfg0.win 2).blk t).view.emb j) k) := by
    show V c main_arg0 (((cfg0.win 0).blk t).view.emb (blkFeatIx j k)) = _
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : iblk0 V c 1 t (blkWgtIx j k) = V c main_arg2 (wgtIx (((cfg0.win 2).blk t).view.emb j) k) := by
    show V c main_arg2 (((cfg0.win 1).blk t).view.emb (blkWgtIx j k)) = _
    refine congrArg _ (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  rw [h0, h1]

/-- An index of the output is in point `t`'s block iff each coordinate is in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v26).slice (win0_2.rect t)).set ↔ _
  rw [View.set_slice_whole, Rect.mem_set_unit]
  exact Iff.rfl

/-- Every block row of the output is some point's. -/
theorem block_onto : ∀ q : Fin 25, ∃ t : Fin cfg0.N, win0_2.index t = ![q.val, 0] :=
  (by decide +kernel : ∀ q : Fin 25, ∃ t : Fin grid0.N, win0_2.index t = ![q.val, 0])

/-- The 25 blocks of 2000 rows tile the 50000 rows: row `r` is in the block of point `r / 2000`. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := block_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the call the output array is `x·W` of the features and the weight as the call found them. -/
theorem final (c : Dev nD) : (dat0 V c).arrAt 2 cfg0.N = xW (V c main_arg0) (V c main_arg2) :=
  (dat0 V c).arrAt_eq_of_cover 2 _ (fun t _ => flushed_eq V c t) cover

end Blocks

end Cert.KernelIdeal.ProjFirst

end
-- ==== Proof.AfterFirstCall.lean ====
/-
  When the first pallas_call is left: its output array holds x·W₁ of the arrays it found; every other buffer is as it was.
-/
import proofs.«118485_j37271726195316_1_alg».proof.Proof.Gen.KernelIdeal.Frame
import proofs.«118485_j37271726195316_1_alg».proof.Proof.Network
import proofs.«118485_j37271726195316_1_alg».proof.Proof.ProjFirst
import Idealize.ShloMosaic.Lib.StableHlo.Run
import Idealize.ShloMosaic.PureOps.Ideal

set_option maxRecDepth 16384

noncomputable section

namespace Cert.KernelIdeal.Through

open Cert.KernelIdeal Cert.KernelIdeal.Gen Cert.KernelIdeal.Layers
open Idealize.ShloMosaic Idealize.ShloMosaic.TcCoe Idealize.SL.Sem Idealize.ShloMosaic.StableHlo

variable (m : (ℓ : Loc nD τ sig) → Buf (Elt Ideal) ℓ) (ρ : Dev nD → PrngReg)

theorem exit_first (c : Dev nD) :
    W2 m ρ c (Proc.devRef .tc main_v26) = ProjFirst.xW (W1 m ρ c (Proc.devRef .tc main_arg0)) (W1 m ρ c (Proc.devRef .tc main_arg2))
    ∧ W2 m ρ c (Proc.devRef .tc main_v1) = W1 m ρ c (Proc.devRef .tc main_v1)
    ∧ W2 m ρ c (Proc.devRef .tc main_v3) = W1 m ρ c (Proc.devRef .tc main_v3)
    ∧ W2 m ρ c (Proc.devRef .tc main_v9) = W1 m ρ c (Proc.devRef .tc main_v9)
    ∧ W2 m ρ c (Proc.devRef .tc main_v25) = W1 m ρ c (Proc.devRef .tc main_v25)
    ∧ W2 m ρ c (Proc.devRef .tc main_arg3) = W1 m ρ c (Proc.devRef .tc main_arg3)
    ∧ W2 m ρ c (Proc.devRef .tc main_arg4) = W1 m ρ c (Proc.devRef .tc main_arg4)
    ∧ W2 m ρ c (Proc.devRef .tc main_arg5) = W1 m ρ c (Proc.devRef .tc main_arg5) :=
  ⟨(W2_arr m ρ c 2).trans (ProjFirst.final (V1 m ρ) c),
   W2_of_ne m ρ c main_v1 (by decide), W2_of_ne m ρ c main_v3 (by decide), W2_of_ne m ρ c main_v9 (by decide),
   W2_of_ne m ρ c main_v25 (by decide), W2_of_ne m ρ c main_arg3 (by decide), W2_of_ne m ρ c main_arg4 (by decide),
   W2_of_ne m ρ c main_arg5 (by decide)⟩

end Cert.KernelIdeal.Through

end
-- ==== Proof.Aggregated.lean ====
/-
  After the host stretch between the calls: the first layer's aggregation of the product over the graph, the self-loop
  term and the bias; the edge arrays and the remaining arguments are untouched.
-/
import proofs.«118485_j37271726195316_1_alg».proof.Proof.Gen.KernelIdeal.Frame
import proofs.«118485_j37271726195316_1_alg».proof.Proof.Network
import Idealize.ShloMosaic.Lib.StableHlo.Run
import Idealize.ShloMosaic.PureOps.Ideal

set_option maxRecDepth 16384

noncomputable section

namespace Cert.KernelIdeal.Through

open Cert.KernelIdeal Cert.KernelIdeal.Gen Cert.KernelIdeal.Layers
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 16000000 in
theorem agg_value (c : Dev nD) : W3 m ρ c (Proc.devRef .tc main_v48) = aggregate256 (W2 m ρ c (Proc.devRef .tc main_v26)) (W2 m ρ c (Proc.devRef .tc main_v1)) (W2 m ρ c (Proc.devRef .tc main_v3)) (W2 m ρ c (Proc.devRef .tc main_v25)) (W2 m ρ c (Proc.devRef .tc main_v9)) (W2 m ρ c (Proc.devRef .tc main_arg3)) := by
  show StableHlo.after hostOps1 (W2 m ρ c) _ = _
  after_results_simp
  try rfl
set_option maxHeartbeats 16000000 in
theorem agg_keeps_v1 (c : Dev nD) : W3 m ρ c (Proc.devRef .tc main_v1) = W2 m ρ c (Proc.devRef .tc main_v1) := by
  show StableHlo.after hostOps1 (W2 m ρ c) _ = _
  after_results_simp
  try rfl
set_option maxHeartbeats 16000000 in
theorem agg_keeps_v3 (c : Dev nD) : W3 m ρ c (Proc.devRef .tc main_v3) = W2 m ρ c (Proc.devRef .tc main_v3) := by
  show StableHlo.after hostOps1 (W2 m ρ c) _ = _
  after_results_simp
  try rfl
set_option maxHeartbeats 16000000 in
theorem agg_keeps_v9 (c : Dev nD) : W3 m ρ c (Proc.devRef .tc main_v9) = W2 m ρ c (Proc.devRef .tc main_v9) := by
  show StableHlo.after hostOps1 (W2 m ρ c) _ = _
  after_results_simp
  try rfl
set_option maxHeartbeats 16000000 in
theorem agg_keeps_v25 (c : Dev nD) : W3 m ρ c (Proc.devRef .tc main_v25) = W2 m ρ c (Proc.devRef .tc main_v25) := by
  show StableHlo.after hostOps1 (W2 m ρ c) _ = _
  after_results_simp
  try rfl
set_option maxHeartbeats 16000000 in
theorem agg_keeps_arg4 (c : Dev nD) : W3 m ρ c (Proc.devRef .tc main_arg4) = W2 m ρ c (Proc.devRef .tc main_arg4) := by
  show StableHlo.after hostOps1 (W2 m ρ c) _ = _
  after_results_simp
  try rfl
set_option maxHeartbeats 16000000 in
theorem agg_keeps_arg5 (c : Dev nD) : W3 m ρ c (Proc.devRef .tc main_arg5) = W2 m ρ c (Proc.devRef .tc main_arg5) := by
  show StableHlo.after hostOps1 (W2 m ρ c) _ = _
  after_results_simp
  try rfl

theorem after_aggregation (c : Dev nD) :
    W3 m ρ c (Proc.devRef .tc main_v48) = aggregate256 (W2 m ρ c (Proc.devRef .tc main_v26)) (W2 m ρ c (Proc.devRef .tc main_v1)) (W2 m ρ c (Proc.devRef .tc main_v3)) (W2 m ρ c (Proc.devRef .tc main_v25)) (W2 m ρ c (Proc.devRef .tc main_v9)) (W2 m ρ c (Proc.devRef .tc main_arg3))
    ∧ W3 m ρ c (Proc.devRef .tc main_v1) = W2 m ρ c (Proc.devRef .tc main_v1)
    ∧ W3 m ρ c (Proc.devRef .tc main_v3) = W2 m ρ c (Proc.devRef .tc main_v3)
    ∧ W3 m ρ c (Proc.devRef .tc main_v9) = W2 m ρ c (Proc.devRef .tc main_v9)
    ∧ W3 m ρ c (Proc.devRef .tc main_v25) = W2 m ρ c (Proc.devRef .tc main_v25)
    ∧ W3 m ρ c (Proc.devRef .tc main_arg4) = W2 m ρ c (Proc.devRef .tc main_arg4)
    ∧ W3 m ρ c (Proc.devRef .tc main_arg5) = W2 m ρ c (Proc.devRef .tc main_arg5) :=
  ⟨agg_value m ρ c, agg_keeps_v1 m ρ c, agg_keeps_v3 m ρ c, agg_keeps_v9 m ρ c, agg_keeps_v25 m ρ c, agg_keeps_arg4 m ρ c,
   agg_keeps_arg5 m ρ c⟩

end Cert.KernelIdeal.Through

end
-- ==== Proof.AtSecondCall.lean ====
/-
  When the second pallas_call is entered: the aggregated features clamped at zero; everything else untouched.
  (The clamp is a called function's three operations; they are read over the contents before them as a variable.)
-/
import proofs.«118485_j37271726195316_1_alg».proof.Proof.Gen.KernelIdeal.Frame
import proofs.«118485_j37271726195316_1_alg».proof.Proof.Network
import Idealize.ShloMosaic.Lib.StableHlo.Run
import Idealize.ShloMosaic.PureOps.Ideal

set_option maxRecDepth 16384

noncomputable section

namespace Cert.KernelIdeal.Through

open Cert.KernelIdeal Cert.KernelIdeal.Gen Cert.KernelIdeal.Layers
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
theorem clamp_value (c : Dev nD) : W4 m ρ c (Proc.devRef .tc main_v49) = relu (W3 m ρ c (Proc.devRef .tc main_v48)) := by
  show StableHlo.after hostOps1_1 (W3 m ρ c) _ = _
  generalize W3 m ρ c = V
  after_results_simp
  try rfl
set_option maxHeartbeats 4000000 in
theorem clamp_keeps_v1 (c : Dev nD) : W4 m ρ c (Proc.devRef .tc main_v1) = W3 m ρ c (Proc.devRef .tc main_v1) := by
  show StableHlo.after hostOps1_1 (W3 m ρ c) _ = _
  generalize W3 m ρ c = V
  after_results_simp
  try rfl
set_option maxHeartbeats 4000000 in
theorem clamp_keeps_v3 (c : Dev nD) : W4 m ρ c (Proc.devRef .tc main_v3) = W3 m ρ c (Proc.devRef .tc main_v3) := by
  show StableHlo.after hostOps1_1 (W3 m ρ c) _ = _
  generalize W3 m ρ c = V
  after_results_simp
  try rfl
set_option maxHeartbeats 4000000 in
theorem clamp_keeps_v9 (c : Dev nD) : W4 m ρ c (Proc.devRef .tc main_v9) = W3 m ρ c (Proc.devRef .tc main_v9) := by
  show StableHlo.after hostOps1_1 (W3 m ρ c) _ = _
  generalize W3 m ρ c = V
  after_results_simp
  try rfl
set_option maxHeartbeats 4000000 in
theorem clamp_keeps_v25 (c : Dev nD) : W4 m ρ c (Proc.devRef .tc main_v25) = W3 m ρ c (Proc.devRef .tc main_v25) := by
  show StableHlo.after hostOps1_1 (W3 m ρ c) _ = _
  generalize W3 m ρ c = V
  after_results_simp
  try rfl
set_option maxHeartbeats 4000000 in
theorem clamp_keeps_arg4 (c : Dev nD) : W4 m ρ c (Proc.devRef .tc main_arg4) = W3 m ρ c (Proc.devRef .tc main_arg4) := by
  show StableHlo.after hostOps1_1 (W3 m ρ c) _ = _
  generalize W3 m ρ c = V
  after_results_simp
  try rfl
set_option maxHeartbeats 4000000 in
theorem clamp_keeps_arg5 (c : Dev nD) : W4 m ρ c (Proc.devRef .tc main_arg5) = W3 m ρ c (Proc.devRef .tc main_arg5) := by
  show StableHlo.after hostOps1_1 (W3 m ρ c) _ = _
  generalize W3 m ρ c = V
  after_results_simp
  try rfl

theorem entry_second (c : Dev nD) :
    W4 m ρ c (Proc.devRef .tc main_v49) = relu (W3 m ρ c (Proc.devRef .tc main_v48))
    ∧ W4 m ρ c (Proc.devRef .tc main_v1) = W3 m ρ c (Proc.devRef .tc main_v1)
    ∧ W4 m ρ c (Proc.devRef .tc main_v3) = W3 m ρ c (Proc.devRef .tc main_v3)
    ∧ W4 m ρ c (Proc.devRef .tc main_v9) = W3 m ρ c (Proc.devRef .tc main_v9)
    ∧ W4 m ρ c (Proc.devRef .tc main_v25) = W3 m ρ c (Proc.devRef .tc main_v25)
    ∧ W4 m ρ c (Proc.devRef .tc main_arg4) = W3 m ρ c (Proc.devRef .tc main_arg4)
    ∧ W4 m ρ c (Proc.devRef .tc main_arg5) = W3 m ρ c (Proc.devRef .tc main_arg5) :=
  ⟨clamp_value m ρ c, clamp_keeps_v1 m ρ c, clamp_keeps_v3 m ρ c, clamp_keeps_v9 m ρ c, clamp_keeps_v25 m ρ c,
   clamp_keeps_arg4 m ρ c, clamp_keeps_arg5 m ρ c⟩

end Cert.KernelIdeal.Through

end
-- ==== Proof.ProjSecond.lean ====
/-
  The second dense projection, as the array the second pallas_call leaves.

  The same tiling as the first: a 25-point grid, point t loading rows 2000·t … 2000·t+1999 of the hidden features h
  (all 256 columns) and the whole 256×128 weight W, and storing their product into the same rows of the 50000×128
  output. The loaded block passes through a change of shape to its own shape, which is the identity, and a change of
  float format, the identity on the extended reals; the product into a zero accumulator is the plain sum. So block t
  is rows 2000·t … of  (h·W)[r, c] = Σ_k h[r, k] · W[k, c],  and the 25 blocks tile the rows: after the call the output
  array is h·W, whatever the buffers held at entry.
-/
import proofs.«118485_j37271726195316_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.ProjSecond

open Cert.KernelIdeal Cert.KernelIdeal.Gen Idealize.ShloMosaic Idealize.ShloMosaic.TcCoe Idealize.SL.Sem
open Idealize.ShloMosaic.Pipeline (Dat Cfg Window)

/-! ## The product, entry by entry -/

/-- Entry (row of `i`, `k`) of the hidden-feature array. -/
abbrev hidIx (i : S50000x128.Idx) (k : Fin 256) : S50000x256.Idx := fun a => match a with
  | ⟨0, _⟩ => ⟨(i 0).val, (i 0).isLt⟩
  | ⟨1, _⟩ => ⟨k.val, k.isLt⟩
/-- Entry (`k`, column of `i`) of the weight. -/
abbrev wgtIx (i : S50000x128.Idx) (k : Fin 256) : S256x128.Idx := fun a => match a with
  | ⟨0, _⟩ => ⟨k.val, k.isLt⟩
  | ⟨1, _⟩ => ⟨(i 1).val, (i 1).isLt⟩

/-- `h·W` on the extended reals: `(h·W)[r, c] = Σ_k h[r, k] · W[k, c]`. -/
def hW (h : S50000x256.Idx → EReal) (w : S256x128.Idx → EReal) : S50000x128.Idx → EReal :=
  fun i => ∑ k : Fin 256, h (hidIx i k) * w (wgtIx i k)

/-! ## One block's product at an index -/

/-- Entry (row of `j`, `k`) of a 2000-row block of hidden features. -/
abbrev blkHidIx (j : S2000x128.Idx) (k : Fin 256) : S2000x256.Idx := fun a => match a with
  | ⟨0, _⟩ => ⟨(j 0).val, (j 0).isLt⟩
  | ⟨1, _⟩ => ⟨k.val, k.isLt⟩
/-- Entry (`k`, column of `j`) of the weight, for an index of a block. -/
abbrev blkWgtIx (j : S2000x128.Idx) (k : Fin 256) : S256x128.Idx := fun a => match a with
  | ⟨0, _⟩ => ⟨k.val, k.isLt⟩
  | ⟨1, _⟩ => ⟨(j 1).val, (j 1).isLt⟩

theorem lhs_axis0 (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_axis1 (j : S2000x128.Idx) (q : dot_S2000x256_S256x128_S2000x128_1_0_0_1_n_n.contr.Idx) :
    (dot_S2000x256_S256x128_S2000x128_1_0_0_1_n_n.lhsIdx j q 1).val = (q ⟨0, by decide⟩).val :=
  dot_S2000x256_S256x128_S2000x128_1_0_0_1_n_n.lhsIdx_val_of_single rfl j q
theorem rhs_axis0 (j : S2000x128.Idx) (q : dot_S2000x256_S256x128_S2000x128_1_0_0_1_n_n.contr.Idx) :
    (dot_S2000x256_S256x128_S2000x128_1_0_0_1_n_n.rhsIdx j q 0).val = (q ⟨0, by decide⟩).val :=
  dot_S2000x256_S256x128_S2000x128_1_0_0_1_n_n.rhsIdx_val_of_single rfl j q
theorem rhs_axis1 (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- What the body stores, at an index of the block: the row of the hidden-feature block against the column of the weight. -/
theorem pay_apply (x0 : Vec Ideal S2000x256 .f32) (x1 : Vec Ideal S256x128 .f32) (j : S2000x128.Idx) :
    k1_pay1 (F := Ideal) x0 x1 j = ∑ k : Fin 256, x0 (blkHidIx j k) * x1 (blkWgtIx j k) := by
  unfold k1_pay1
  refine (Ideal.matmul_constant_zero_apply dot_S2000x256_S256x128_S2000x128_1_0_0_1_n_n none _ _ j).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = blkHidIx j k := funext fun a => Fin.ext (by
    match a with
    | ⟨0, _⟩ => exact lhs_axis0 _ _
    | ⟨1, _⟩ => exact (lhs_axis1 _ _).trans hk)
  have er : dot_S2000x256_S256x128_S2000x128_1_0_0_1_n_n.rhsIdx j ((ValueIdx.contrEquiv1 dot_S2000x256_S256x128_S2000x128_1_0_0_1_n_n 256 rfl rfl).symm k) = blkWgtIx j k := funext fun a => Fin.ext (by
    match a with
    | ⟨0, _⟩ => exact (rhs_axis0 _ _).trans hk
    | ⟨1, _⟩ => exact rhs_axis1 _ _)
  rw [el, er]
  -- the change of shape to the block's own shape is the identity; so is the change of format
  exact congrArg (· * x1 (blkWgtIx j k)) (congrFun (shapeCast_self x0 shapeCasts_S2000x256_S2000x256) (blkHidIx j k))

/-! ## From blocks to the array -/

section Blocks

-- the buffers' contents when the call is entered: any
variable (V : (c : Dev nD) → (b : Ref sig .tc) → Buf (Elt Ideal) ((c : Thread nD τ).loc b))

theorem origin_eq : (![0, 0] : Fin 2 → Nat) = fun _ => 0 := funext fun a => by fin_cases a <;> rfl

/-- The block indices over the grid: point `t` takes block row `t` of the hidden features and of the output, and the one block of the weight. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is rows `2000·t …` of `h·W`, for the hidden features and the weight as the call finds them. -/
theorem flushed_eq (c : Dev nD) (t : Fin cfg1.N) :
    (dat1 V c).flushed 2 t = ((cfg1.win 2).blk t).view.read (Elt Ideal) (hW (V c main_v49) (V c main_arg4)) := by
  show (cfg1.win 2).cut (grid1.coords t) ((dat1 V c).after 2 t) = _
  rw [after1_2]
  unfold out1_2
  rw [View.canon_unit_zero origin_eq]
  simp only [View.ld_unit_zero (S := S2000x256) origin_eq, View.ld_unit_zero (S := S256x128) origin_eq]
  obtain ⟨e0, e1, e2, e3, e4, e5⟩ := block_indices t
  funext j
  refine (pay_apply (iblk1 V c 0 t) (iblk1 V c 1 t) j).trans ?_
  show _ = hW (V c main_v49) (V c main_arg4) (((cfg1.win 2).blk t).view.emb j)
  unfold hW
  refine Finset.sum_congr rfl fun k _ => ?_
  have h0 : iblk1 V c 0 t (blkHidIx j k) = V c main_v49 (hidIx (((cfg1.win 2).blk t).view.emb j) k) := by
    show V c main_v49 (((cfg1.win 0).blk t).view.emb (blkHidIx j k)) = _
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  have h1 : iblk1 V c 1 t (blkWgtIx j k) = V c main_arg4 (wgtIx (((cfg1.win 2).blk t).view.emb j) k) := by
    show V c main_arg4 (((cfg1.win 1).blk t).view.emb (blkWgtIx j k)) = _
    refine congrArg _ (funext fun a => Fin.ext ?_)
    match a with
    | ⟨0, _⟩ => show win1_1.index t (0 : Fin 2) * 256 + 1 * k.val = k.val; omega
    | ⟨1, _⟩ => show win1_1.index t (1 : Fin 2) * 128 + 1 * (j 1).val = win1_2.index t (1 : Fin 2) * 128 + 1 * (j 1).val; omega
  rw [h0, h1]

/-- An index of the output is in point `t`'s block iff each coordinate is in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v50).slice (win1_2.rect t)).set ↔ _
  rw [View.set_slice_whole, Rect.mem_set_unit]
  exact Iff.rfl

/-- Every block row of the output is some point's. -/
theorem block_onto : ∀ q : Fin 25, ∃ t : Fin cfg1.N, win1_2.index t = ![q.val, 0] :=
  (by decide +kernel : ∀ q : Fin 25, ∃ t : Fin grid1.N, win1_2.index t = ![q.val, 0])

/-- The 25 blocks of 2000 rows tile the 50000 rows: row `r` is in the block of point `r / 2000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := block_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the call the output array is `h·W` of the hidden features and the weight as the call found them. -/
theorem final (c : Dev nD) : (dat1 V c).arrAt 2 cfg1.N = hW (V c main_v49) (V c main_arg4) :=
  (dat1 V c).arrAt_eq_of_cover 2 _ (fun t _ => flushed_eq V c t) cover

end Blocks

end Cert.KernelIdeal.ProjSecond

end
-- ==== Proof.AfterSecondCall.lean ====
/-
  When the second pallas_call is left: its output array holds h·W₂ of the arrays it found; every other buffer is as it was.
-/
import proofs.«118485_j37271726195316_1_alg».proof.Proof.Gen.KernelIdeal.Frame
import proofs.«118485_j37271726195316_1_alg».proof.Proof.Network
import proofs.«118485_j37271726195316_1_alg».proof.Proof.ProjSecond
import Idealize.ShloMosaic.Lib.StableHlo.Run
import Idealize.ShloMosaic.PureOps.Ideal

set_option maxRecDepth 16384

noncomputable section

namespace Cert.KernelIdeal.Through

open Cert.KernelIdeal Cert.KernelIdeal.Gen Cert.KernelIdeal.Layers
open Idealize.ShloMosaic Idealize.ShloMosaic.TcCoe Idealize.SL.Sem Idealize.ShloMosaic.StableHlo

variable (m : (ℓ : Loc nD τ sig) → Buf (Elt Ideal) ℓ) (ρ : Dev nD → PrngReg)

theorem exit_second (c : Dev nD) :
    W5 m ρ c (Proc.devRef .tc main_v50) = ProjSecond.hW (W4 m ρ c (Proc.devRef .tc main_v49)) (W4 m ρ c (Proc.devRef .tc main_arg4))
    ∧ W5 m ρ c (Proc.devRef .tc main_v1) = W4 m ρ c (Proc.devRef .tc main_v1)
    ∧ W5 m ρ c (Proc.devRef .tc main_v3) = W4 m ρ c (Proc.devRef .tc main_v3)
    ∧ W5 m ρ c (Proc.devRef .tc main_v9) = W4 m ρ c (Proc.devRef .tc main_v9)
    ∧ W5 m ρ c (Proc.devRef .tc main_v25) = W4 m ρ c (Proc.devRef .tc main_v25)
    ∧ W5 m ρ c (Proc.devRef .tc main_arg5) = W4 m ρ c (Proc.devRef .tc main_arg5) :=
  ⟨(W5_arr m ρ c 2).trans (ProjSecond.final (V4 m ρ) c),
   W5_of_ne m ρ c main_v1 (by decide), W5_of_ne m ρ c main_v3 (by decide), W5_of_ne m ρ c main_v9 (by decide),
   W5_of_ne m ρ c main_v25 (by decide), W5_of_ne m ρ c main_arg5 (by decide)⟩

end Cert.KernelIdeal.Through

end
-- ==== Proof.AtReturn.lean ====
/-
  At the return: the second layer's aggregation of the second product.
-/
import proofs.«118485_j37271726195316_1_alg».proof.Proof.Gen.KernelIdeal.Frame
import proofs.«118485_j37271726195316_1_alg».proof.Proof.Network
import Idealize.ShloMosaic.Lib.StableHlo.Run
import Idealize.ShloMosaic.PureOps.Ideal

set_option maxRecDepth 16384

noncomputable section

namespace Cert.KernelIdeal.Through

open Cert.KernelIdeal Cert.KernelIdeal.Gen Cert.KernelIdeal.Layers
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 16000000 in
theorem at_return (c : Dev nD) :
    W6 m ρ c (Proc.devRef .tc main_v72) = aggregate128 (W5 m ρ c (Proc.devRef .tc main_v50)) (W5 m ρ c (Proc.devRef .tc main_v1)) (W5 m ρ c (Proc.devRef .tc main_v3)) (W5 m ρ c (Proc.devRef .tc main_v25)) (W5 m ρ c (Proc.devRef .tc main_v9)) (W5 m ρ c (Proc.devRef .tc main_arg5)) := by
  show StableHlo.after hostOps2 (W5 m ρ c) _ = _
  after_results_simp
  rfl

end Cert.KernelIdeal.Through

end
-- ==== Proof.KernelValue.lean ====
/-
  The kernel's program, boundary by boundary, chained: the result array is the two-layer network at the two products.

  Before the first call the host has computed, from the edge table alone, the source and destination of every edge,
  the degrees and the edge normalisation; the first call leaves `x·W₁`; the host aggregates it over the graph and clamps
  at zero; the second call leaves `h·W₂`; the host aggregates again. A host stretch's result is its operations applied to
  what the buffers held before it; a call changes its output array only.
-/
import proofs.«118485_j37271726195316_1_alg».proof.Proof.AtFirstCall
import proofs.«118485_j37271726195316_1_alg».proof.Proof.AfterFirstCall
import proofs.«118485_j37271726195316_1_alg».proof.Proof.Aggregated
import proofs.«118485_j37271726195316_1_alg».proof.Proof.AtSecondCall
import proofs.«118485_j37271726195316_1_alg».proof.Proof.AfterSecondCall
import proofs.«118485_j37271726195316_1_alg».proof.Proof.AtReturn

set_option maxRecDepth 16384

noncomputable section

namespace Cert.KernelIdeal.Through

open Cert.KernelIdeal Cert.KernelIdeal.Gen Cert.KernelIdeal.Layers
open Idealize.ShloMosaic Idealize.ShloMosaic.TcCoe Idealize.SL.Sem Idealize.ShloMosaic.StableHlo

variable (m : (ℓ : Loc nD τ sig) → Buf (Elt Ideal) ℓ) (ρ : Dev nD → PrngReg)

/-- The result array is the two-layer network at the two products, of the arguments as launched. -/
theorem result (c : Dev nD) :
    W6 m ρ c (Proc.devRef .tc main_v72) = network ProjFirst.xW ProjSecond.hW (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  obtain ⟨a1, a3, a9, a25, ax, aw1, ab1, aw2, ab2⟩ := entry_first m ρ c
  obtain ⟨b26, b1, b3, b9, b25, bb1, bw2, bb2⟩ := exit_first m ρ c
  obtain ⟨c48, c1, c3, c9, c25, cw2, cb2⟩ := after_aggregation m ρ c
  obtain ⟨d49, d1, d3, d9, d25, dw2, db2⟩ := entry_second m ρ c
  obtain ⟨e50, e1, e3, e9, e25, eb2⟩ := exit_second m ρ c
  rw [at_return, e50, e1, e3, e9, e25, eb2, d49, d1, d3, d9, d25, dw2, db2, c48, c1, c3, c9, c25, cw2, cb2,
    b26, b1, b3, b9, b25, bb1, bw2, bb2, a1, a3, a9, a25, ax, aw1, ab1, aw2, ab2]
  rfl

end Cert.KernelIdeal.Through

end
-- ==== Proof.RefNetwork.lean ====
/-
  The reference as the same network, at jnp's two `dot_general`s — and each `dot_general`, on the extended reals, is the
  product the kernel's pallas_call leaves:  Σ_k x[r, k] · W[k, c].

  The reference's run states its result as one term of the arguments. That term is, operation for operation, the
  chain named `network`: the same slices, scatter-adds, gathers, broadcasts and sums (the reference computes the degrees
  and the edge normalisation once per layer, to the same terms), with `dot_general` where the kernel's program has a
  pallas_call. So the term is `network` at the two `dot_general`s by unfolding the names alone.
-/
import proofs.«118485_j37271726195316_1_alg».proof.Proof.Gen.ReferenceIdeal.Run
import proofs.«118485_j37271726195316_1_alg».proof.Proof.Gen.ReferenceIdeal.Read
import proofs.«118485_j37271726195316_1_alg».proof.Proof.Network
import proofs.«118485_j37271726195316_1_alg».proof.Proof.ProjFirst
import proofs.«118485_j37271726195316_1_alg».proof.Proof.ProjSecond
import Idealize.ShloMosaic.Lib.ValueIdx
import Idealize.ShloMosaic.PureOps.Ideal.Laws

noncomputable section

namespace Cert.ReferenceIdeal.AsNetwork

open Cert.ReferenceIdeal Cert.ReferenceIdeal.Gen Idealize.ShloMosaic Idealize.ShloMosaic.TcCoe Idealize.SL.Sem

/-! ## jnp's projections -/

section AnyInstance
variable {F : FTy → Type} [FloatOps F]

/-- jnp's `x @ W₁`. -/
def dotFirst (x : (⟨S50000x256, .f32⟩ : BufTy).Contents (Elt F)) (w : (⟨S256x256, .f32⟩ : BufTy).Contents (Elt F)) :
    (⟨S50000x256, .f32⟩ : BufTy).Contents (Elt F) :=
  Host.dotGeneral dot_S50000x256_S256x256_S50000x256_1_0_0_1_n_n none x w

/-- jnp's `h @ W₂`. -/
def dotSecond (h : (⟨S50000x256, .f32⟩ : BufTy).Contents (Elt F)) (w : (⟨S256x128, .f32⟩ : BufTy).Contents (Elt F)) :
    (⟨S50000x128, .f32⟩ : BufTy).Contents (Elt F) :=
  Host.dotGeneral dot_S50000x256_S256x128_S50000x128_1_0_0_1_n_n none h w

set_option maxRecDepth 8192 in
set_option maxHeartbeats 4000000 in
/-- The run's result term is the network at jnp's projections. -/
theorem result_term (m : (ℓ : Loc nD τ sig) → Buf (Elt F) ℓ) (c : Dev nD) :
    Cert.ReferenceIdeal.Value.res_main_v94 m c
      = Cert.KernelIdeal.Layers.network (F := F) dotFirst dotSecond (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5)) := by
  unfold Cert.ReferenceIdeal.Value.res_main_v94 Cert.KernelIdeal.Layers.network Cert.KernelIdeal.Layers.aggregate128
    Cert.KernelIdeal.Layers.aggregate256 Cert.KernelIdeal.Layers.relu Cert.KernelIdeal.Layers.coefOf Cert.KernelIdeal.Layers.degOf
    Cert.KernelIdeal.Layers.fromEnd Cert.KernelIdeal.Layers.srcOf Cert.KernelIdeal.Layers.dstOf dotFirst dotSecond
  rfl

end AnyInstance

/-! ## On the extended reals a `dot_general` is the product -/

/-- `x @ W₁` is `Σ_k x[r, k] · W₁[k, c]`. -/
theorem dotFirst_eq (x : (⟨S50000x256, .f32⟩ : BufTy).Contents (Elt Ideal)) (w : (⟨S256x256, .f32⟩ : BufTy).Contents (Elt Ideal)) :
    dotFirst (F := Ideal) x w = Cert.KernelIdeal.ProjFirst.xW x w := by
  funext i
  unfold dotFirst Cert.KernelIdeal.ProjFirst.xW
  simp only [Host.dotGeneral]
  rw [Ideal.dotGeneral_apply, ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx i ((ValueIdx.contrEquiv1 dot_S50000x256_S256x256_S50000x256_1_0_0_1_n_n 256 rfl rfl).symm k) = Cert.KernelIdeal.ProjFirst.featIx i k := funext fun a => Fin.ext (by
    match a with
    | ⟨0, _⟩ => exact Read.lhs_main_v11_0 _ _
    | ⟨1, _⟩ => exact (Read.lhs_main_v11_1 _ _).trans hk)
  have er : dot_S50000x256_S256x256_S50000x256_1_0_0_1_n_n.rhsIdx i ((ValueIdx.contrEquiv1 dot_S50000x256_S256x256_S50000x256_1_0_0_1_n_n 256 rfl rfl).symm k) = Cert.KernelIdeal.ProjFirst.wgtIx i k := funext fun a => Fin.ext (by
    match a with
    | ⟨0, _⟩ => exact (Read.rhs_main_v11_0 _ _).trans hk
    | ⟨1, _⟩ => exact Read.rhs_main_v11_1 _ _)
  rw [el, er]

/-- `h @ W₂` is `Σ_k h[r, k] · W₂[k, c]`. -/
theorem dotSecond_eq (h : (⟨S50000x256, .f32⟩ : BufTy).Contents (Elt Ideal)) (w : (⟨S256x128, .f32⟩ : BufTy).Contents (Elt Ideal)) :
    dotSecond (F := Ideal) h w = Cert.KernelIdeal.ProjSecond.hW h w := by
  funext i
  unfold dotSecond Cert.KernelIdeal.ProjSecond.hW
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx i ((ValueIdx.contrEquiv1 dot_S50000x256_S256x128_S50000x128_1_0_0_1_n_n 256 rfl rfl).symm k) = Cert.KernelIdeal.ProjSecond.hidIx i k := funext fun a => Fin.ext (by
    match a with
    | ⟨0, _⟩ => exact Read.lhs_main_v57_0 _ _
    | ⟨1, _⟩ => exact (Read.lhs_main_v57_1 _ _).trans hk)
  have er : dot_S50000x256_S256x128_S50000x128_1_0_0_1_n_n.rhsIdx i ((ValueIdx.contrEquiv1 dot_S50000x256_S256x128_S50000x128_1_0_0_1_n_n 256 rfl rfl).symm k) = Cert.KernelIdeal.ProjSecond.wgtIx i k := funext fun a => Fin.ext (by
    match a with
    | ⟨0, _⟩ => exact (Read.rhs_main_v57_0 _ _).trans hk
    | ⟨1, _⟩ => exact Read.rhs_main_v57_1 _ _)
  rw [el, er]

/-- The reference's result, on the extended reals, is the network at the two products. -/
theorem result (m : (ℓ : Loc nD τ sig) → Buf (Elt Ideal) ℓ) (c : Dev nD) :
    Cert.ReferenceIdeal.Value.res_main_v94 m c
      = Cert.KernelIdeal.Layers.network (F := Ideal) Cert.KernelIdeal.ProjFirst.xW Cert.KernelIdeal.ProjSecond.hW
          (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5)) := by
  rw [result_term]
  have e1 : (dotFirst (F := Ideal)) = Cert.KernelIdeal.ProjFirst.xW := funext fun x => funext fun w => dotFirst_eq x w
  have e2 : (dotSecond (F := Ideal)) = Cert.KernelIdeal.ProjSecond.hW := funext fun h => funext fun w => dotSecond_eq h w
  rw [e1, e2]

end Cert.ReferenceIdeal.AsNetwork

end
-- ==== Proof.lean ====
/-
  A two-layer graph convolution: the kernel computes each layer's dense projection x·W in a pallas_call tiled over 2000-row
  blocks (inputs cast to bf16, f32 accumulation) and leaves the graph aggregation to the host; the reference computes the
  projection with jnp's matrix product and the same aggregation.

  On the extended reals the cast is the identity and both products are Σ_k x[r, k] · W[k, c]; the 25 blocks of each call
  tile its output. Every other operation — the slices of the edge table, the degree count, the edge normalisation, the
  gather, the scatter-add, the self-loop term, the bias, the clamp at zero — is the same operation on the same operands
  in both programs, and is carried as one named chain (`network`), never opened. So both programs end at
  `network` of the two products of their arguments, and arguments that agree give equal results. No property of the
  inputs is used: the precondition is never opened.

  The three frames are the generated ones (the reference's is its generated run with the result dropped); the ideal
  pass rewrote nothing, so there is nothing to preserve.
-/
import proofs.«118485_j37271726195316_1_alg».proof.Defs
import proofs.«118485_j37271726195316_1_alg».proof.Proof.Gen.Kernel
import proofs.«118485_j37271726195316_1_alg».proof.Proof.Gen.Kernel.Frame
import proofs.«118485_j37271726195316_1_alg».proof.Proof.Gen.KernelIdeal
import proofs.«118485_j37271726195316_1_alg».proof.Proof.Gen.KernelIdeal.Frame
import proofs.«118485_j37271726195316_1_alg».proof.Proof.Gen.ReferenceIdeal
import proofs.«118485_j37271726195316_1_alg».proof.Proof.Gen.ReferenceIdeal.Run
import proofs.«118485_j37271726195316_1_alg».proof.Proof.Gen.Pre_finite_inputs
import proofs.«118485_j37271726195316_1_alg».proof.Proof.KernelRunNamed
import proofs.«118485_j37271726195316_1_alg».proof.Proof.KernelValue
import proofs.«118485_j37271726195316_1_alg».proof.Proof.RefNetwork
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from arguments that agree, end at the two-layer network of the two products of those arguments. -/
theorem algebraic : Cert.algebraic_KernelIdeal_ReferenceIdeal := by
  intro m ρ m' ρ' _ hagree
  refine ⟨fun c => Cert.KernelIdeal.Layers.network (F := Ideal) Cert.KernelIdeal.ProjFirst.xW Cert.KernelIdeal.ProjSecond.hW
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Through.result m ρ c), (h c).2⟩) (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5⟩ := hagree c
    rw [Cert.ReferenceIdeal.AsNetwork.result m' c, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
